-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S256x1 : Shape := ⟨2, ![256, 1]⟩
abbrev S256x128 : Shape := ⟨2, ![256, 128]⟩
abbrev S1x256 : Shape := ⟨2, ![1, 256]⟩
abbrev S256x256 : Shape := ⟨2, ![256, 256]⟩
abbrev S256 : Shape := ⟨1, ![256]⟩

abbrev nBuf : Space → Nat
  | .hbm => 16
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S1x8192, .i32⟩
  | .hbm, ⟨10, _⟩ => ⟨S8192x1, .i32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S8192x128, .f32⟩
  | .local _ .vmem, ⟨1, _⟩ => ⟨S1x8192, .i32⟩
  | .local _ .vmem, ⟨2, _⟩ => ⟨S8192x1, .i32⟩
  | .local _ .vmem, ⟨3, _⟩ => ⟨S256x1, .f32⟩
  | .local _ .vmem, ⟨4, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def k0_off2 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v5 : Index := Scalar.indexCast v1
  let c0_0 : Index := 0#32
  ![v5.toNat, 0]
@[reducible] def k0_t1_loop : Scf.Loop 32 :=
  let c0_i32 : BitVec 32 := 0#32
  let c32_i32 : BitVec 32 := 32#32
  let v10 : BitVec 32 := Scalar.addi c0_i32 c32_i32
  let c1_i32 : BitVec 32 := 1#32
  ⟨c0_i32, v10, c1_i32⟩
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32_5 : BitVec 32 := 256#32
  let v15 : BitVec 32 := Scalar.muli arg5 c256_i32_5
  v15
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32_5 : BitVec 32 := 256#32
  let v15 : BitVec 32 := Scalar.muli arg5 c256_i32_5
  let v16 : BitVec 32 := v15
  let v17 : Index := Scalar.indexCast v16
  let c0_6 : Index := 0#32
  ![v17.toNat, 0]
def k0_off4 (k0_t1 : Fin k0_t1_loop.trips) : Fin 2 → Nat :=
  let c0_7 : Index := 0#32
  let c0_i32 : BitVec 32 := 0#32
  let c1_i32 : BitVec 32 := 1#32
  let arg5 : BitVec 32 := Scf.iv c0_i32 c1_i32 k0_t1
  let c256_i32_5 : BitVec 32 := 256#32
  let v15 : BitVec 32 := Scalar.muli arg5 c256_i32_5
  let v16 : BitVec 32 := v15
  let v20 : Index := Scalar.indexCast v16
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  shapeCasts_S8192_S1x8192 : S8192.ShapeCasts S1x8192
  shapeCasts_S8192_S8192x1 : S8192.ShapeCasts S8192x1
  h_S256x128 : 0 < S256x128.numel
  shapeCasts_S256x128_S256x128 : S256x128.ShapeCasts S256x128
  h_S256x1 : 0 < S256x1.numel
  shapeCasts_S256x1_S256x1 : S256x1.ShapeCasts S256x1
  h_S1x256 : 0 < S1x256.numel
  shapeCasts_S1x256_S1x256 : S1x256.ShapeCasts S1x256
  broadcasts_S256x1_S256x256 : S256x1.Broadcasts S256x256
  broadcasts_S1x256_S256x256 : S1x256.Broadcasts S256x256
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  inb_S256x1_S256x1_0_0 : ∀ a, (![0, 0] : Fin 2 → Nat) a + S256x1.size a ≤ S256x1.size a
  reducesTo_S8192x1_S_d0_1 : S8192x1.ReducesTo [0, 1] S_
  dot_S256x128_S256x128_S256x256_1_1_0_0_n_n_wf : DotDims.WF S256x128 S256x128 S256x256 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x128.size a ≤ S8192x128.size a
  k0_off2_inb : ∀ i : grid0.Coords, ∀ a, (k0_off2 i) a + S256x1.size a ≤ S8192x1.size a
  k0_t1_ok : k0_t1_loop.OK
  k0_mult2_dvd : ∀ k0_t1 : Fin k0_t1_loop.trips, 256 ∣ (k0_mult2 k0_t1).toNat
  k0_off3_inb : ∀ k0_t1 : Fin k0_t1_loop.trips, ∀ a, (k0_off3 k0_t1) a + S256x128.size a ≤ S8192x128.size a
  k0_off4_inb : ∀ k0_t1 : Fin k0_t1_loop.trips, ∀ a, (k0_off4 k0_t1) a + S1x256.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .i32 = 32 ∨ (Rect.block (s := S1x8192) S1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8192x1.size a
  hwx0_2 : ∀ i : grid0.Coords, EltTy.bits .i32 = 32 ∨ (Rect.block (s := S8192x1) S8192x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

def dot_S256x128_S256x128_S256x256_1_1_0_0_n_n : DotDims S256x128 S256x128 S256x256 where
  lhsContracting := [1]
  rhsContracting := [1]
  lhsNonContracting := [0]
  rhsNonContracting := [0]
  lhsBatch := []
  rhsBatch := []
  wf := dot_S256x128_S256x128_S256x256_1_1_0_0_n_n_wf

abbrev win0_0 : Pipeline.Window sig grid0 :=
  Pipeline.Window.ofSpec (Memref.whole main_v5) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8192x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S128x8192, .f32⟩
  | .hbm, ⟨10, _⟩ => ⟨S8192x8192, .f32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .i1⟩
  | .hbm, ⟨23, _⟩ => ⟨S8192x8192, .i1⟩
  | .hbm, ⟨24, _⟩ => ⟨S8192x8192, .i1⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_call1_cst : Ref sig .tc := ⟨.hbm, 28, rfl⟩
abbrev main_call1_v0 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_call2_cst : Ref sig .tc := ⟨.hbm, 34, rfl⟩
abbrev main_call2_v0 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_call3_v0 : Ref sig .tc := ⟨.hbm, 45, rfl⟩
abbrev main_call3_v1 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_call4_v0 : Ref sig .tc := ⟨.hbm, 56, rfl⟩
abbrev main_call4_v1 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The specification: the circle loss of a (row-normalised) feature matrix and a label vector as one
  function on the extended reals.

  For rows `R`, `C` of the 8192 x 128 matrix `f`, the similarity is `sim f R C = Σ_d f R d · f C d`.
  A pair (R, C) is a POSITIVE when the labels agree and R ≠ C, a NEGATIVE when the labels differ.
  With `α_p = max (5/4 - s) 0`, `α_n = max (s + 1/4) 0` the exponents are
  `(-32 · α_p) · (s - 3/4)` on the positives and `(32 · α_n) · (s - 1/4)` on the negatives, and `-∞`
  elsewhere; row R's loss is `log (1 + (Σ_C exp e_p(R,C)) · (Σ_C exp e_n(R,C)))` and the result the mean
  of the 8192 row losses.  The float literals stay the words the programs print: the same word on
  both sides is never evaluated.

  The one law of arithmetic used between the two programs: a sum over 8192 columns is the sum, over 32
  consecutive chunks, of the sums over each chunk's 256 columns, accumulated from zero in chunk order —
  commutativity and associativity of `+` on the extended reals, which hold at the infinities too.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- A feature matrix: 8192 rows of 128 extended reals. -/
abbrev Feat := (⟨2, ![8192, 128]⟩ : Shape).Idx → EReal
/-- A label vector: 8192 words. -/
abbrev Lab := (⟨1, ![8192]⟩ : Shape).Idx → BitVec 32

/-- The inner product of rows `R` and `C`. -/
def sim (f : Feat) (R C : Fin 8192) : EReal := ∑ d : Fin 128, f (ix2 R d) * f (ix2 C d)

/-- Rows `R` and `C` carry the same label. -/
def same (lab : Lab) (R C : Fin 8192) : BitVec 1 := IntOp.cmpi .eq (lab (ix1 R)) (lab (ix1 C))

/-- `R` and `C` are different rows (their numbers compared as 32-bit words; both are below 2^32). -/
def offDiag (R C : Fin 8192) : BitVec 1 := ~~~(IntOp.cmpi .eq (BitVec.ofNat 32 R.val) (BitVec.ofNat 32 C.val))

/-- The exponent of a positive pair at similarity `s`: `(-32 · max (5/4 - s) 0) · (s - 3/4)`. -/
def posExpo (s : EReal) : EReal :=
  (Ideal.ofBits .f32 0xC2000000#32 * max (Ideal.ofBits .f32 0x3FA00000#32 - s) (Ideal.ofBits .f32 0x00000000#32))
    * (s - Ideal.ofBits .f32 0x3F400000#32)

/-- The exponent of a negative pair at similarity `s`: `(32 · max (s + 1/4) 0) · (s - 1/4)`. -/
def negExpo (s : EReal) : EReal :=
  (Ideal.ofBits .f32 0x42000000#32 * max (s + Ideal.ofBits .f32 0x3E800000#32) (Ideal.ofBits .f32 0x00000000#32))
    * (s - Ideal.ofBits .f32 0x3E800000#32)

/-- What the pair (R, C) adds to row R's positive sum: `exp` of its exponent if it is a positive, of `-∞` (so 0) if not. -/
def posTerm (f : Feat) (lab : Lab) (R C : Fin 8192) : EReal :=
  Ideal.exp (Scalar.select (IntOp.andi (same lab R C) (offDiag R C)) (posExpo (sim f R C)) (Ideal.ofBits .f32 0xFF800000#32))

/-- What the pair (R, C) adds to row R's negative sum. -/
def negTerm (f : Feat) (lab : Lab) (R C : Fin 8192) : EReal :=
  Ideal.exp (Scalar.select (~~~(same lab R C)) (negExpo (sim f R C)) (Ideal.ofBits .f32 0xFF800000#32))

/-- Row `R`'s loss: `log (1 + P · N)` of its positive sum `P` and its negative sum `N`, each summed from zero. -/
def rowLoss (f : Feat) (lab : Lab) (R : Fin 8192) : EReal :=
  Ideal.log1p ((Ideal.ofBits .f32 0x00000000#32 + ∑ C : Fin 8192, posTerm f lab R C)
    * (Ideal.ofBits .f32 0x00000000#32 + ∑ C : Fin 8192, negTerm f lab R C))

/-- The loss: the mean of the row losses (their sum from zero, divided by the word for 8192). -/
def loss (f : Feat) (lab : Lab) : EReal :=
  Ideal.div (Ideal.ofBits .f32 0x00000000#32 + ∑ R : Fin 8192, rowLoss f lab R) (Ideal.ofBits .f32 0x46000000#32)

/-! ## Columns in chunks -/

/-- Column `256·k + c`: column `c` of chunk `k`. -/
def col (k : Fin 32) (c : Fin 256) : Fin 8192 := ⟨256 * k.val + c.val, by have := k.isLt; have := c.isLt; omega⟩

/-- A sum over the 8192 columns is the sum over the 32 chunks of the sums over each chunk's 256 columns. -/
theorem sum_cols {M : Type*} [AddCommMonoid M] (g : Fin 8192 → M) :
    ∑ C : Fin 8192, g C = ∑ k : Fin 32, ∑ c : Fin 256, g (col k c) := by
  rw [← Fintype.sum_prod_type']
  refine (Fintype.sum_equiv (finProdFinEquiv (m := 32) (n := 256)) _ _ fun p => ?_).symm
  congr 1
  apply Fin.ext
  simp only [col, finProdFinEquiv_apply_val]
  omega

/-- Accumulating the chunks' sums one after the other from `z`: after `n` chunks. -/
def accum {M : Type*} [AddCommMonoid M] (z : M) (h : Fin 32 → M) : ℕ → M
  | 0 => z
  | n + 1 => accum z h n + (if hn : n < 32 then h ⟨n, hn⟩ else 0)

/-- After all 32 chunks the accumulator holds `z` plus the whole sum. -/
theorem accum_all {M : Type*} [AddCommMonoid M] (z : M) (h : Fin 32 → M) : accum z h 32 = z + ∑ k : Fin 32, h k := by
  have key : ∀ n (hn : n ≤ 32), accum z h n = z + ∑ k : Fin n, h (Fin.castLE hn k) := by
    intro n
    induction n with
    | zero => intro _; simp [accum]
    | succ n ih =>
      intro hn
      rw [accum, ih (Nat.le_of_succ_le hn), dif_pos (Nat.lt_of_succ_le hn), Fin.sum_univ_castSucc, add_assoc]
      rfl
  simpa using key 32 le_rfl

end Cert.Spec

end
-- ==== Proof.RefSpec.lean ====
/-
  The reference computes the specification: its result, read one operation at a time, is `Spec.loss` of its own
  row-normalised features and the labels.
-/
import proofs.«102173_j38628935860375_1_alg».proof.Proof.Gen.ReferenceIdeal.Read
import proofs.«102173_j38628935860375_1_alg».proof.Proof.Spec

noncomputable section

namespace Cert.RefSpec

open Idealize.ShloMosaic Idealize.ShloMosaic.ValueIdx Cert.ReferenceIdeal Cert.ReferenceIdeal.Read
open scoped BigOperators

/-! ## Composed index functions at coordinates -/

private theorem lidx_v4_at (R C : Fin 8192) (k : Fin 128) : lidx_main_v4 (ix2 R C) k = ix2 R k :=
  funext fun a => Fin.ext (by match a with | ⟨0, _⟩ => rfl | ⟨1, _⟩ => rfl)

private theorem ridx_v4_at (R C : Fin 8192) (k : Fin 128) : idx_main_v3 (ridx_main_v4 (ix2 R C) k) = ix2 C k :=
  funext fun a => Fin.ext (by match a with | ⟨0, _⟩ => rfl | ⟨1, _⟩ => rfl)

private theorem idx_v7_at (R C : Fin 8192) : idx_main_v5 (idx_main_v7 (ix2 R C)) = ix1 R :=
  funext fun a => Fin.ext (by match a with | ⟨0, _⟩ => rfl)

private theorem idx_v8_at (R C : Fin 8192) : idx_main_v6 (idx_main_v8 (ix2 R C)) = ix1 C :=
  funext fun a => Fin.ext (by match a with | ⟨0, _⟩ => rfl)

private theorem idx_v37_at (R k : Fin 8192) : idx_main_v37 (ix1 R) k = ix2 R k :=
  funext fun a => Fin.ext (by match a with | ⟨0, _⟩ => rfl | ⟨1, _⟩ => rfl)

private theorem idx_v39_at (R k : Fin 8192) : idx_main_v39 (ix1 R) k = ix2 R k :=
  funext fun a => Fin.ext (by match a with | ⟨0, _⟩ => rfl | ⟨1, _⟩ => rfl)

/-! ## The similarity at (R, C) -/

private theorem sim_at (x0 : (⟨S8192x128, .f32⟩ : BufTy).Contents (Elt Ideal)) (R C : Fin 8192) :
    val_main_v4 (F := Ideal) x0 (ix2 R C) = Cert.Spec.sim (val_main_v2 (F := Ideal) x0) R C := by
  rw [val_main_v4_apply]
  unfold Cert.Spec.sim
  refine Finset.sum_congr rfl fun k _ => ?_
  rw [val_main_v3_apply, lidx_v4_at, ridx_v4_at]

/-! ## The two masks at (R, C) -/

private theorem same_at (x1 : (⟨S8192, .i32⟩ : BufTy).Contents (Elt Ideal)) (R C : Fin 8192) :
    val_main_v9 (F := Ideal) x1 (ix2 R C) = Cert.Spec.same x1 R C := by
  rw [val_main_v9_apply, val_main_v7_apply, val_main_v8_apply, val_main_v5_apply, val_main_v6_apply,
    idx_v7_at, idx_v8_at]
  rfl

private theorem offDiag_at (R C : Fin 8192) :
    val_main_v15 (F := Ideal) (ix2 R C) = Cert.Spec.offDiag R C := by
  rw [val_main_v15_apply, val_main_v14_apply, val_main_v13_apply, val_main_v10_apply, val_main_v11_apply,
    val_main_v12_apply, val_main_c_apply]
  unfold Cert.Spec.offDiag IntOp.addi
  rw [BitVec.add_zero]

/-! ## The two terms at (R, C) -/

private theorem posTerm_at (x0 : (⟨S8192x128, .f32⟩ : BufTy).Contents (Elt Ideal))
    (x1 : (⟨S8192, .i32⟩ : BufTy).Contents (Elt Ideal)) (R C : Fin 8192) :
    val_main_v36 (F := Ideal) x0 x1 (ix2 R C) = Cert.Spec.posTerm (val_main_v2 (F := Ideal) x0) x1 R C := by
  rw [val_main_v36_apply, val_main_v29_apply, val_main_v16_apply, same_at, offDiag_at,
    val_main_v28_apply, val_main_v25_apply, val_main_v27_apply, val_main_v20_apply, val_main_v19_apply,
    val_main_v24_apply, val_main_v18_apply, val_main_v26_apply, val_main_call1_v0_apply,
    val_main_cst_1_apply, val_main_cst_apply, val_main_cst_2_apply, val_main_call1_cst_apply,
    val_main_call3_v1_apply, val_main_call3_v0_apply, val_main_cst_3_apply, sim_at]
  simp only [Ideal.ofBits_def, Ideal.mulf_def, Ideal.subf_def, Ideal.maximumf_def, Ideal.hostUnary_exp_def]
  rfl

private theorem negTerm_at (x0 : (⟨S8192x128, .f32⟩ : BufTy).Contents (Elt Ideal))
    (x1 : (⟨S8192, .i32⟩ : BufTy).Contents (Elt Ideal)) (R C : Fin 8192) :
    val_main_v38 (F := Ideal) x0 x1 (ix2 R C) = Cert.Spec.negTerm (val_main_v2 (F := Ideal) x0) x1 R C := by
  rw [val_main_v38_apply, val_main_v35_apply, val_main_v17_apply, same_at,
    val_main_v34_apply, val_main_v31_apply, val_main_v33_apply, val_main_v23_apply, val_main_v22_apply,
    val_main_v30_apply, val_main_v21_apply, val_main_v32_apply, val_main_call2_v0_apply,
    val_main_cst_4_apply, val_main_cst_0_apply, val_main_cst_5_apply, val_main_call2_cst_apply,
    val_main_call4_v1_apply, val_main_call4_v0_apply, val_main_cst_6_apply, sim_at]
  simp only [Ideal.ofBits_def, Ideal.mulf_def, Ideal.subf_def, Ideal.addf_def, Ideal.maximumf_def,
    Ideal.hostUnary_exp_def]
  rfl

/-! ## The row loss at R -/

private theorem rowLoss_at (x0 : (⟨S8192x128, .f32⟩ : BufTy).Contents (Elt Ideal))
    (x1 : (⟨S8192, .i32⟩ : BufTy).Contents (Elt Ideal)) (R : Fin 8192) :
    val_main_v41 (F := Ideal) x0 x1 (ix1 R) = Cert.Spec.rowLoss (val_main_v2 (F := Ideal) x0) x1 R := by
  rw [val_main_v41_apply, val_main_v40_apply, val_main_v37_apply, val_main_v39_apply,
    val_main_cst_7_apply, val_main_cst_8_apply]
  simp only [idx_v37_at, idx_v39_at, posTerm_at, negTerm_at, Ideal.ofBits_def, Ideal.mulf_def,
    Ideal.hostUnary_log1p_def]
  rfl

/-! ## Rank-1 indices are row numbers -/

/-- The rank-1 index set over 8192 is `Fin 8192`. -/
private def idxEquiv1 : S8192.Idx ≃ Fin 8192 where
  toFun i := i 0
  invFun R := ix1 R
  left_inv i := (eq_ix1 i).symm
  right_inv _ := rfl

private theorem sum_idx1 (g : S8192.Idx → EReal) : ∑ j : S8192.Idx, g j = ∑ R : Fin 8192, g (ix1 R) :=
  (Equiv.sum_comp idxEquiv1.symm g).symm

/-- The reference's result is the specification's loss of the normalised features `x / ‖x‖` (the reference's own
    stage `val_main_v2`) and the labels. -/
theorem result_eq (x0 : (⟨S8192x128, .f32⟩ : BufTy).Contents (Elt Ideal)) (x1 : (⟨S8192, .i32⟩ : BufTy).Contents (Elt Ideal)) :
    val_main_v43 (F := Ideal) x0 x1 = fun _ => Cert.Spec.loss (val_main_v2 (F := Ideal) x0) x1 := by
  funext i
  rw [val_main_v43_apply, val_main_v42_apply, val_main_cst_9_apply, val_main_cst_10_apply, sum_idx1]
  simp only [rowLoss_at, Ideal.ofBits_def, Ideal.hostDivf_def]
  rfl

end Cert.RefSpec

end
-- ==== Proof.KernelTrip.lean ====
/-
  The kernel body at one grid point, as values.  The body loads the point's 256 query rows and their 256 labels,
  then runs 32 trips; trip `k` loads the 256 key rows and 256 labels of column chunk `k` and adds that chunk's
  positive and negative sums to two carried 256 x 1 accumulators; after the last trip it stores
  `log (1 + P · N)` of the two accumulators.  Here: what one trip does to the carried pair, and what the store leaves,
  both as the body's named arithmetic applied to the four loaded blocks.
-/
import proofs.«102173_j38628935860375_1_alg».proof.Proof.Gen.KernelIdeal.Frame
import Idealize.ShloMosaic.Lib.Pipeline.Value

set_option maxRecDepth 16384

noncomputable section

namespace Cert.KernelTrip

open Idealize.ShloMosaic Idealize.ShloMosaic.TcCoe Idealize.ShloMosaic.Tactic
open Idealize.SL Idealize.SL.Sem
open Cert.KernelIdeal Cert.KernelIdeal.Gen

variable {F : FTy → Type} [FloatOps F]

/-- The point's 256 query rows: rows `256·i …` of the feature array the first operand's buffer holds. -/
def qBlk (i : grid0.Coords) (arg1 : Memref sig .tc .vmem S8192x128 .f32) (harg1 : arg1.IsWhole) (x0 : Vec F S8192x128 .f32) : Vec F S256x128 .f32 :=
  View.readAt (Elt F) arg1.view (Rect.unit (s := S8192x128) (k0_off1 i) S256x128.size (Cert.KernelIdeal.Gen.k0_off1_inb i)).toLoadRect (harg1.unread x0)

/-- The labels of the point's 256 rows, a column. -/
def rowLab (i : grid0.Coords) (arg3 : Memref sig .tc .vmem S8192x1 .i32) (harg3 : arg3.IsWhole) (x2 : Vec F S8192x1 .i32) : Vec F S256x1 .i32 :=
  View.readAt (Elt F) arg3.view (Rect.unit (s := S8192x1) (k0_off2 i) S256x1.size (Cert.KernelIdeal.Gen.k0_off2_inb i)).toLoadRect (harg3.unread x2)

/-- Trip `k`'s 256 key rows: rows `256·k …` of the same feature array. -/
def keyBlk (arg1 : Memref sig .tc .vmem S8192x128 .f32) (X_arg1 : BufTy.Contents (Elt F) arg1.view.ty) (k : Fin k0_t1_loop.trips) : Vec F S256x128 .f32 :=
  View.readAt (Elt F) arg1.view (Rect.unit (s := S8192x128) (k0_off3 k) S256x128.size (Cert.KernelIdeal.Gen.k0_off3_inb k)).toLoadRect X_arg1

/-- Trip `k`'s 256 column labels, a row. -/
def colLab (arg2 : Memref sig .tc .vmem S1x8192 .i32) (X_arg2 : BufTy.Contents (Elt F) arg2.view.ty) (k : Fin k0_t1_loop.trips) : Vec F S1x256 .i32 :=
  View.readAt (Elt F) arg2.view (Rect.unit (s := S1x8192) (k0_off4 k) S1x256.size (Cert.KernelIdeal.Gen.k0_off4_inb k)).toLoadRect X_arg2

/-- The loop runs 32 trips. -/
theorem trips_eq : k0_t1_loop.trips = 32 := by decide

/-- ONE TRIP: the carried pair `(P, N)` becomes `(P + chunk k's positive sums, N + chunk k's negative sums)`, each the
    body's arithmetic on the query block, the row labels, and chunk `k`'s key block and column labels. -/
theorem trip_eq (𝒱 : Variants) (c : Dev nD) (bd : Option 𝒱.V) (i : grid0.Coords) (arg1 : Memref sig .tc .vmem S8192x128 .f32) (harg1 : arg1.IsWhole) (arg2 : Memref sig .tc .vmem S1x8192 .i32) (harg2 : arg2.IsWhole) (arg3 : Memref sig .tc .vmem S8192x1 .i32) (harg3 : arg3.IsWhole) (arg4 : Memref sig .tc .vmem S256x1 .f32) (harg4 : arg4.IsWhole) (v1 : BitVec 32) (v3 : Vec F S256x128 .f32) (v6 : Vec F S256x1 .i32) (X_arg1 : BufTy.Contents (Elt F) arg1.view.ty) (X_arg2 : BufTy.Contents (Elt F) arg2.view.ty) (k : Fin k0_t1_loop.trips) (acc : FVec F S256x1 .f32 × FVec F S256x1 .f32) :
    tripR_k0_t1 (F := F) 𝒱 c bd i arg1 harg1 arg2 harg2 arg3 harg3 arg4 harg4 v1 v3 v6 X_arg1 X_arg2 k acc
      = (k0_pay5 acc.1 (k0_pay11 v1 (k0_pay1 v3) (k0_pay2 v6) 0#32 1#32 k (keyBlk arg1 X_arg1 k) (colLab arg2 X_arg2 k)),
         k0_pay6 acc.2 (k0_pay10 (k0_pay2 v6) (colLab arg2 X_arg2 k)) (k0_pay12 (k0_pay1 v3) (keyBlk arg1 X_arg1 k)) (k0_pay13 (F := F))) := by
  unfold tripR_k0_t1 trip_k0_t1
  dsimp only
  sl_unfold_words
  rfl

/-- The carried pair after `n` trips at a point, from the two zero columns. -/
abbrev loopAt (c : Dev nD) (i : grid0.Coords) (arg1 : Memref sig .tc .vmem S8192x128 .f32) (harg1 : arg1.IsWhole) (arg2 : Memref sig .tc .vmem S1x8192 .i32) (harg2 : arg2.IsWhole) (arg3 : Memref sig .tc .vmem S8192x1 .i32) (harg3 : arg3.IsWhole) (arg4 : Memref sig .tc .vmem S256x1 .f32) (harg4 : arg4.IsWhole)
    (x0 : Vec F S8192x128 .f32) (x1 : Vec F S1x8192 .i32) (x2 : Vec F S8192x1 .i32) (n : ℕ) : FVec F S256x1 .f32 × FVec F S256x1 .f32 :=
  st_k0_t1 (F := F) Variants.none c none i arg1 harg1 arg2 harg2 arg3 harg3 arg4 harg4 (k0_mult1 i) (qBlk i arg1 harg1 x0) (rowLab i arg3 harg3 x2)
    (harg1.unread x0) (harg2.unread x1) (k0_pay3 (F := F), k0_pay4 (F := F)) n

/-- WHAT THE POINT STORES: `log (1 + P · N)` of the carried pair after the 32nd trip. -/
theorem out_eq (c : Dev nD) (i : grid0.Coords) (arg1 : Memref sig .tc .vmem S8192x128 .f32) (harg1 : arg1.IsWhole) (arg2 : Memref sig .tc .vmem S1x8192 .i32) (harg2 : arg2.IsWhole) (arg3 : Memref sig .tc .vmem S8192x1 .i32) (harg3 : arg3.IsWhole) (arg4 : Memref sig .tc .vmem S256x1 .f32) (harg4 : arg4.IsWhole) (x0 : Vec F S8192x128 .f32) (x1 : Vec F S1x8192 .i32) (x2 : Vec F S8192x1 .i32) :
    out0_A_3 (F := F) c i arg1 harg1 arg2 harg2 arg3 harg3 arg4 harg4 x0 x1 x2
      = k0_pay7 (loopAt c i arg1 harg1 arg2 harg2 arg3 harg3 arg4 harg4 x0 x1 x2 32).1 (loopAt c i arg1 harg1 arg2 harg2 arg3 harg3 arg4 harg4 x0 x1 x2 32).2 := by
  have hz : (![0, 0] : Fin S256x1.rank → ℕ) = fun _ => 0 := by
    funext a; match a with | ⟨0, _⟩ => rfl | ⟨1, _⟩ => rfl
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero hz]
  rfl

end Cert.KernelTrip

end
-- ==== Proof.Payloads.lean ====
/-
  The kernel body's arithmetic, one payload at a time, read at an index on the extended reals.
-/
import proofs.«102173_j38628935860375_1_alg».proof.Proof.Gen.KernelIdeal.Skeleton
import proofs.«102173_j38628935860375_1_alg».proof.Proof.Spec
import Idealize.ShloMosaic.Lib.Pipeline.Value
import Idealize.ShloMosaic.Lib.ValueLayout
import Idealize.ShloMosaic.PureOps.Ideal.Laws

noncomputable section

namespace Cert.Payloads

open Idealize.ShloMosaic Idealize.ShloMosaic.ValueIdx Cert.KernelIdeal Cert.KernelIdeal.Gen
open scoped BigOperators

/-! ## What the non-pointwise operations read at an index -/

/-- A one-bit word xor the bit 1 is its complement. -/
private theorem xori_one (b : BitVec 1) : IntOp.xori b 1#1 = ~~~b := by
  rcases BitVec.eq_zero_or_eq_one b with h | h <;> subst h <;> rfl

/-- A column broadcast along the lanes reads, at (r, c), the column at r. -/
private theorem broadcastTo_col_apply {α : Type} (v : S256x1.Idx → α) (h : S256x1.Broadcasts S256x256) (r c : Fin 256) :
    broadcastTo S256x256 v h (ix2 r c) = v (ix2 r (0 : Fin 1)) := by
  refine broadcastTo_apply v h (ix2 r c) (ix2 r (0 : Fin 1)) fun ax => ?_
  match ax with
  | ⟨0, _⟩ => show r.val = if (256 : ℕ) = 1 then 0 else r.val; rw [if_neg (by decide)]
  | ⟨1, _⟩ => show 0 = if (1 : ℕ) = 1 then 0 else c.val; rw [if_pos rfl]

/-- The lane sum of a tile, cast to a column, reads at row r the sum of the row's 256 entries. -/
private theorem rowSum_apply (v : FVec Ideal S256x256 .f32) (h : S256x256.Reduces [1] S256) (hφ : FKind.Formats .f32)
    (hacc : (0x00000000#32 : BitVec 32) = FKind.add.neutral .f32 hφ) (hc : S256.ShapeCasts S256x1) (r : Fin 256) :
    shapeCast S256x1 (multiReduction (F := Ideal) .add [1] S256 v 0x00000000#32 h hφ hacc) hc (ix2 r (0 : Fin 1))
      = ∑ c : Fin 256, v (ix2 r c) := by
  refine (shapeCast_apply _ hc (ix2 r (0 : Fin 1)) (ix1 r) ?_).trans ?_
  · rw [Shape.rowMajor_val_one, Shape.rowMajor_val_two]
    show r.val = r.val * 1 + 0
    omega
  refine (Ideal.multiReduction_add_single v _ h hφ hacc (ix1 r)).trans ?_
  refine Finset.sum_congr rfl fun k _ => congrArg v ?_
  funext a
  match a with
  | ⟨0, _⟩ => rfl
  | ⟨1, _⟩ => rfl

/-- The product's left operand index at output index i and contraction index q: its row is i's row … -/
private theorem lhs_dot_0 (i : S256x256.Idx) (q : dot_S256x128_S256x128_S256x256_1_1_0_0_n_n.contr.Idx) :
    (dot_S256x128_S256x128_S256x256_1_1_0_0_n_n.lhsIdx i q 0).val = (i 0).val := by
  unfold DotDims.lhsIdx
  rw [dif_neg (show ¬(0 : Fin S256x128.rank) ∈ dot_S256x128_S256x128_S256x256_1_1_0_0_n_n.lhsBatch by decide), dif_pos (show (0 : Fin S256x128.rank) ∈ dot_S256x128_S256x128_S256x256_1_1_0_0_n_n.lhsNonContracting by decide)]
  rfl
/-- … and its column is q. -/
private theorem lhs_dot_1 (i : S256x256.Idx) (q : dot_S256x128_S256x128_S256x256_1_1_0_0_n_n.contr.Idx) :
    (dot_S256x128_S256x128_S256x256_1_1_0_0_n_n.lhsIdx i q 1).val = (q ⟨0, by decide⟩).val :=
  dot_S256x128_S256x128_S256x256_1_1_0_0_n_n.lhsIdx_val_of_single rfl i q
/-- The right operand index: its row is i's column (both operands are contracted along their second axis) … -/
private theorem rhs_dot_0 (i : S256x256.Idx) (q : dot_S256x128_S256x128_S256x256_1_1_0_0_n_n.contr.Idx) :
    (dot_S256x128_S256x128_S256x256_1_1_0_0_n_n.rhsIdx i q 0).val = (i 1).val := by
  unfold DotDims.rhsIdx
  rw [dif_neg (show ¬(0 : Fin S256x128.rank) ∈ dot_S256x128_S256x128_S256x256_1_1_0_0_n_n.rhsBatch by decide), dif_pos (show (0 : Fin S256x128.rank) ∈ dot_S256x128_S256x128_S256x256_1_1_0_0_n_n.rhsNonContracting by decide)]
  rfl
/-- … and its column is q. -/
private theorem rhs_dot_1 (i : S256x256.Idx) (q : dot_S256x128_S256x128_S256x256_1_1_0_0_n_n.contr.Idx) :
    (dot_S256x128_S256x128_S256x256_1_1_0_0_n_n.rhsIdx i q 1).val = (q ⟨0, by decide⟩).val :=
  dot_S256x128_S256x128_S256x256_1_1_0_0_n_n.rhsIdx_val_of_single rfl i q

/-- The two shape casts of a block to its own shape are the identity. -/
theorem pay1_eq (v3 : Vec Ideal S256x128 .f32) : k0_pay1 (F := Ideal) v3 = v3 := by
  unfold k0_pay1
  exact shapeCast_self v3 _
theorem pay2_eq (v6 : Vec Ideal S256x1 .i32) : k0_pay2 (F := Ideal) v6 = v6 := by
  unfold k0_pay2
  exact shapeCast_self v6 _

/-- Both accumulators start at the zero word. -/
theorem pay3_apply (r : Fin 256) : k0_pay3 (F := Ideal) (ix2 r (0 : Fin 1)) = Ideal.ofBits .f32 0x00000000#32 := by
  rfl
theorem pay4_apply (r : Fin 256) : k0_pay4 (F := Ideal) (ix2 r (0 : Fin 1)) = Ideal.ofBits .f32 0x00000000#32 := by
  rfl

/-- The similarity tile: entry (r, c) is the inner product of row r of the query block and row c of the key block. -/
theorem pay8_apply (v4 : FVec Ideal S256x128 .f32) (v18 : Vec Ideal S256x128 .f32) (r c : Fin 256) :
    k0_pay8 (F := Ideal) v4 v18 (ix2 r c) = ∑ d : Fin 128, v4 (ix2 r d) * v18 (ix2 c d) := by
  unfold k0_pay8
  simp only [shapeCast_self]
  refine (Ideal.matmul_constant_zero_apply dot_S256x128_S256x128_S256x256_1_1_0_0_n_n (some .fp32) v4 v18 (ix2 r c)).trans ?_
  rw [← Equiv.sum_comp (contrEquiv1 dot_S256x128_S256x128_S256x256_1_1_0_0_n_n 128 rfl rfl).symm]
  refine Finset.sum_congr rfl fun k _ => ?_
  have hk := contrEquiv1_symm_val dot_S256x128_S256x128_S256x256_1_1_0_0_n_n 128 rfl rfl k
  have el : dot_S256x128_S256x128_S256x256_1_1_0_0_n_n.lhsIdx (ix2 r c) ((contrEquiv1 dot_S256x128_S256x128_S256x256_1_1_0_0_n_n 128 rfl rfl).symm k) = ix2 r k := funext fun a => Fin.ext (by
    match a with
    | ⟨0, _⟩ => exact lhs_dot_0 _ _
    | ⟨1, _⟩ => exact (lhs_dot_1 _ _).trans hk)
  have er : dot_S256x128_S256x128_S256x256_1_1_0_0_n_n.rhsIdx (ix2 r c) ((contrEquiv1 dot_S256x128_S256x128_S256x256_1_1_0_0_n_n 128 rfl rfl).symm k) = ix2 c k := funext fun a => Fin.ext (by
    match a with
    | ⟨0, _⟩ => exact rhs_dot_0 _ _
    | ⟨1, _⟩ => exact (rhs_dot_1 _ _).trans hk)
  rw [el, er]

/-- Same label: the row block's label column against the key chunk's label row. -/
theorem pay9_apply (v7 : IVec S256x1 32) (v21 : Vec Ideal S1x256 .i32) (r c : Fin 256) :
    k0_pay9 (F := Ideal) v7 v21 (ix2 r c) = IntOp.cmpi .eq (v7 (ix2 r (0 : Fin 1))) (v21 (ix2 (0 : Fin 1) c)) := by
  unfold k0_pay9
  simp only [shapeCast_self]
  show IntOp.cmpi .eq (broadcastTo S256x256 v7 _ (ix2 r c)) (broadcastTo S256x256 v21 _ (ix2 r c)) = _
  rw [broadcastTo_col_apply, broadcastTo_1b_ab_apply]

/-- Different label. -/
theorem pay10_apply (v7 : IVec S256x1 32) (v21 : Vec Ideal S1x256 .i32) (r c : Fin 256) :
    k0_pay10 (F := Ideal) v7 v21 (ix2 r c) = ~~~(IntOp.cmpi .eq (v7 (ix2 r (0 : Fin 1))) (v21 (ix2 (0 : Fin 1) c))) := by
  unfold k0_pay10
  show IntOp.xori (k0_pay9 (F := Ideal) v7 v21 (ix2 r c)) 1#1 = _
  rw [pay9_apply, xori_one]

/-- The positive exponent tile: where the labels agree and the global row and column numbers differ, the positive
    exponent of the similarity; `-∞` elsewhere. -/
theorem pay11_apply (v1 : BitVec 32) (v4 : FVec Ideal S256x128 .f32) (v7 : IVec S256x1 32) (k : Fin k0_t1_loop.trips)
    (v18 : Vec Ideal S256x128 .f32) (v21 : Vec Ideal S1x256 .i32) (r c : Fin 256) :
    k0_pay11 (F := Ideal) v1 v4 v7 0#32 1#32 k v18 v21 (ix2 r c)
      = Scalar.select
          (IntOp.andi (IntOp.cmpi .eq (v7 (ix2 r (0 : Fin 1))) (v21 (ix2 (0 : Fin 1) c)))
            (~~~(IntOp.cmpi .eq (v1 + BitVec.ofNat 32 r.val) (Scf.iv 0#32 1#32 k * 256#32 + BitVec.ofNat 32 c.val))))
          (Cert.Spec.posExpo (∑ d : Fin 128, v4 (ix2 r d) * v18 (ix2 c d)))
          (Ideal.ofBits .f32 0xFF800000#32) := by
  unfold k0_pay11
  show Scalar.select
      (IntOp.andi (k0_pay9 (F := Ideal) v7 v21 (ix2 r c))
        (IntOp.xori (IntOp.cmpi .eq (v1 + iota .tc S256x256 32 [0] _ (ix2 r c))
          (Scf.iv 0#32 1#32 k * 256#32 + iota .tc S256x256 32 [1] _ (ix2 r c))) 1#1))
      (Cert.Spec.posExpo (k0_pay8 (F := Ideal) v4 v18 (ix2 r c)))
      (Ideal.ofBits .f32 0xFF800000#32) = _
  rw [pay9_apply, pay8_apply, xori_one, iota_single_apply, iota_single_apply]

/-- The negative exponent tile, before its mask. -/
theorem pay12_apply (v4 : FVec Ideal S256x128 .f32) (v18 : Vec Ideal S256x128 .f32) (r c : Fin 256) :
    k0_pay12 (F := Ideal) v4 v18 (ix2 r c) = Cert.Spec.negExpo (∑ d : Fin 128, v4 (ix2 r d) * v18 (ix2 c d)) := by
  unfold k0_pay12
  show Cert.Spec.negExpo (k0_pay8 (F := Ideal) v4 v18 (ix2 r c)) = _
  rw [pay8_apply]

/-- The `-∞` tile. -/
theorem pay13_apply (r c : Fin 256) : k0_pay13 (F := Ideal) (ix2 r c) = Ideal.ofBits .f32 0xFF800000#32 := by
  rfl

/-- One trip adds to row r of the positive accumulator the sum over the tile's 256 columns of `exp` of the exponent. -/
theorem pay5_apply (a : FVec Ideal S256x1 .f32) (v51 : FVec Ideal S256x256 .f32) (r : Fin 256) :
    k0_pay5 (F := Ideal) a v51 (ix2 r (0 : Fin 1)) = a (ix2 r (0 : Fin 1)) + ∑ c : Fin 256, Ideal.exp (v51 (ix2 r c)) := by
  unfold k0_pay5
  exact congrArg (a (ix2 r (0 : Fin 1)) + ·) (rowSum_apply (exp v51) _ _ _ _ r)

/-- One trip adds to row r of the negative accumulator the sum over the columns of `exp` of the masked exponent. -/
theorem pay6_apply (a : FVec Ideal S256x1 .f32) (v36 : IVec S256x256 1) (v56 v57 : FVec Ideal S256x256 .f32) (r : Fin 256) :
    k0_pay6 (F := Ideal) a v36 v56 v57 (ix2 r (0 : Fin 1))
      = a (ix2 r (0 : Fin 1)) + ∑ c : Fin 256, Ideal.exp (Scalar.select (v36 (ix2 r c)) (v56 (ix2 r c)) (v57 (ix2 r c))) := by
  unfold k0_pay6
  exact congrArg (a (ix2 r (0 : Fin 1)) + ·) (rowSum_apply (exp (select v36 v56 v57)) _ _ _ _ r)

/-- What is stored: `log (1 + P · N)` of the two accumulators, row by row. -/
theorem pay7_apply (a b : FVec Ideal S256x1 .f32) (r : Fin 256) :
    k0_pay7 (F := Ideal) a b (ix2 r (0 : Fin 1)) = Ideal.log1p (a (ix2 r (0 : Fin 1)) * b (ix2 r (0 : Fin 1))) := by
  rfl

end Cert.Payloads

end
-- ==== Proof.KernelPoint.lean ====
/-
  The kernel body at one grid point, on the extended reals.  At point `p` (of 32) the body's query rows are rows
  `256·p + r` of the feature array and its row labels those rows' labels; trip `q`'s key rows and column labels
  are those of rows `256·q + c`.  So the tile entry (r, c) of trip `q` is the pair (R, C) = (256·p + r, 256·q + c)
  of the specification: its similarity is `Spec.sim`, its masks `Spec.same` and `Spec.offDiag` (the kernel compares
  the words `256·p + r` and `256·q + c`, formed without overflow), and by induction on the trips the carried pair after
  `n` trips holds, in row `r`, the first `n` chunks' positive and negative sums accumulated from zero.  After 32 trips
  that is every column, and the stored value is the specification's row loss.
-/
import proofs.«102173_j38628935860375_1_alg».proof.Proof.KernelTrip
import proofs.«102173_j38628935860375_1_alg».proof.Proof.Payloads
import proofs.«102173_j38628935860375_1_alg».proof.Proof.Spec
import Idealize.ShloMosaic.Lib.WholeRead

set_option maxRecDepth 16384

noncomputable section

namespace Cert.KernelPoint

open Idealize.ShloMosaic Idealize.ShloMosaic.TcCoe Idealize.ShloMosaic.ValueIdx
open Idealize.SL Idealize.SL.Sem
open Cert.KernelIdeal Cert.KernelIdeal.Gen Cert.KernelTrip Cert.Payloads
open scoped BigOperators

/-! ## The four loaded blocks, read at an index -/

theorem qBlk_apply (i : grid0.Coords) (p : Fin 32) (hp : (i 0).val = p.val)
    (arg1 : Memref sig .tc .vmem S8192x128 .f32) (harg1 : arg1.IsWhole) (x0 : Vec Ideal S8192x128 .f32) (r : Fin 256) (d : Fin 128) :
    qBlk i arg1 harg1 x0 (ix2 r d) = x0 (ix2 (Cert.Spec.col p r) d) := by
  unfold qBlk
  rw [harg1.readAt_unread]
  congr 1
  funext a
  apply Fin.ext
  match a with
  | ⟨0, _⟩ =>
    show (k0_off1 i) 0 + 1 * r.val = 256 * p.val + r.val
    rw [k0_off1_eq, ← hp]; simp
  | ⟨1, _⟩ =>
    show (k0_off1 i) 1 + 1 * d.val = d.val
    rw [k0_off1_eq]; simp

theorem rowLab_apply (i : grid0.Coords) (p : Fin 32) (hp : (i 0).val = p.val)
    (arg3 : Memref sig .tc .vmem S8192x1 .i32) (harg3 : arg3.IsWhole) (x2 : Vec Ideal S8192x1 .i32) (r : Fin 256) :
    rowLab i arg3 harg3 x2 (ix2 r (0 : Fin 1)) = x2 (ix2 (Cert.Spec.col p r) (0 : Fin 1)) := by
  unfold rowLab
  rw [harg3.readAt_unread]
  congr 1
  funext a
  apply Fin.ext
  match a with
  | ⟨0, _⟩ =>
    show (k0_off2 i) 0 + 1 * r.val = 256 * p.val + r.val
    rw [k0_off2_eq, ← hp]; simp
  | ⟨1, _⟩ =>
    show (k0_off2 i) 1 + 1 * 0 = 0
    rw [k0_off2_eq]; simp

theorem keyBlk_apply (k : Fin k0_t1_loop.trips) (q : Fin 32) (hq : k.val = q.val)
    (arg1 : Memref sig .tc .vmem S8192x128 .f32) (harg1 : arg1.IsWhole) (x0 : Vec Ideal S8192x128 .f32) (c : Fin 256) (d : Fin 128) :
    keyBlk arg1 (harg1.unread x0) k (ix2 c d) = x0 (ix2 (Cert.Spec.col q c) d) := by
  unfold keyBlk
  rw [harg1.readAt_unread]
  congr 1
  funext a
  apply Fin.ext
  match a with
  | ⟨0, _⟩ =>
    show (k0_off3 k) 0 + 1 * c.val = 256 * q.val + c.val
    rw [k0_off3_eq, ← hq]; simp
  | ⟨1, _⟩ =>
    show (k0_off3 k) 1 + 1 * d.val = d.val
    rw [k0_off3_eq]; simp

theorem colLab_apply (k : Fin k0_t1_loop.trips) (q : Fin 32) (hq : k.val = q.val)
    (arg2 : Memref sig .tc .vmem S1x8192 .i32) (harg2 : arg2.IsWhole) (x1 : Vec Ideal S1x8192 .i32) (c : Fin 256) :
    colLab arg2 (harg2.unread x1) k (ix2 (0 : Fin 1) c) = x1 (ix2 (0 : Fin 1) (Cert.Spec.col q c)) := by
  unfold colLab
  rw [harg2.readAt_unread]
  congr 1
  funext a
  apply Fin.ext
  match a with
  | ⟨0, _⟩ =>
    show (k0_off4 k) 0 + 1 * 0 = 0
    rw [k0_off4_eq]; simp
  | ⟨1, _⟩ =>
    show (k0_off4 k) 1 + 1 * c.val = 256 * q.val + c.val
    rw [k0_off4_eq, ← hq]; simp

/-! ## The row and column numbers as words -/

/-- The point's row offset plus the row inside the block is the global row number, as a 32-bit word. -/
theorem rowWord (i : grid0.Coords) (p : Fin 32) (hp : (i 0).val = p.val) (r : Fin 256) :
    k0_mult1 i + BitVec.ofNat 32 r.val = BitVec.ofNat 32 (Cert.Spec.col p r).val := by
  show BitVec.ofNat 32 (i 0).val * 256#32 + BitVec.ofNat 32 r.val = BitVec.ofNat 32 (256 * p.val + r.val)
  rw [hp, BitVec.ofNat_add, BitVec.ofNat_mul, BitVec.mul_comm]

/-- The trip's column offset plus the column inside the chunk is the global column number, as a 32-bit word. -/
theorem colWord (k : Fin k0_t1_loop.trips) (q : Fin 32) (hq : k.val = q.val) (c : Fin 256) :
    Scf.iv 0#32 1#32 k * 256#32 + BitVec.ofNat 32 c.val = BitVec.ofNat 32 (Cert.Spec.col q c).val := by
  show (0#32 + BitVec.ofNat 32 k.val * 1#32) * 256#32 + BitVec.ofNat 32 c.val = BitVec.ofNat 32 (256 * q.val + c.val)
  rw [hq, BitVec.ofNat_add, BitVec.ofNat_mul, BitVec.mul_comm, BitVec.zero_add, BitVec.mul_one]

/-! ## A tile entry is a pair of the specification -/

section Point

variable (c : Dev nD) (i : grid0.Coords) (p : Fin 32) (hp : (i 0).val = p.val)
  (arg1 : Memref sig .tc .vmem S8192x128 .f32) (harg1 : arg1.IsWhole) (arg2 : Memref sig .tc .vmem S1x8192 .i32) (harg2 : arg2.IsWhole) (arg3 : Memref sig .tc .vmem S8192x1 .i32) (harg3 : arg3.IsWhole) (arg4 : Memref sig .tc .vmem S256x1 .f32) (harg4 : arg4.IsWhole)
  (x0 : Vec Ideal S8192x128 .f32) (x1 : Vec Ideal S1x8192 .i32) (x2 : Vec Ideal S8192x1 .i32)
  (lab : Cert.Spec.Lab)
  (hx1 : ∀ C : Fin 8192, x1 (ix2 (0 : Fin 1) C) = lab (ix1 C))
  (hx2 : ∀ R : Fin 8192, x2 (ix2 R (0 : Fin 1)) = lab (ix1 R))

include hp hx1 hx2

/-- Entry (r, cc) of trip `q`'s positive exponent tile is the specification's masked positive exponent of the pair
    (256·p + r, 256·q + cc). -/
theorem posEntry (k : Fin k0_t1_loop.trips) (q : Fin 32) (hq : k.val = q.val) (r cc : Fin 256) :
    k0_pay11 (F := Ideal) (k0_mult1 i) (k0_pay1 (qBlk i arg1 harg1 x0)) (k0_pay2 (rowLab i arg3 harg3 x2)) 0#32 1#32 k
        (keyBlk arg1 (harg1.unread x0) k) (colLab arg2 (harg2.unread x1) k) (ix2 r cc)
      = Scalar.select
          (IntOp.andi (Cert.Spec.same lab (Cert.Spec.col p r) (Cert.Spec.col q cc)) (Cert.Spec.offDiag (Cert.Spec.col p r) (Cert.Spec.col q cc)))
          (Cert.Spec.posExpo (Cert.Spec.sim x0 (Cert.Spec.col p r) (Cert.Spec.col q cc))) (Ideal.ofBits .f32 0xFF800000#32) := by
  rw [pay11_apply, pay1_eq, pay2_eq, rowWord i p hp r, colWord k q hq cc, rowLab_apply i p hp, colLab_apply k q hq, hx1, hx2]
  simp only [qBlk_apply i p hp, keyBlk_apply k q hq]
  rfl

/-- One trip adds chunk `q`'s positive terms of row `256·p + r`. -/
theorem posChunk (k : Fin k0_t1_loop.trips) (q : Fin 32) (hq : k.val = q.val) (a : FVec Ideal S256x1 .f32) (r : Fin 256) :
    k0_pay5 (F := Ideal) a
        (k0_pay11 (F := Ideal) (k0_mult1 i) (k0_pay1 (qBlk i arg1 harg1 x0)) (k0_pay2 (rowLab i arg3 harg3 x2)) 0#32 1#32 k
          (keyBlk arg1 (harg1.unread x0) k) (colLab arg2 (harg2.unread x1) k)) (ix2 r (0 : Fin 1))
      = a (ix2 r (0 : Fin 1)) + ∑ cc : Fin 256, Cert.Spec.posTerm x0 lab (Cert.Spec.col p r) (Cert.Spec.col q cc) := by
  rw [pay5_apply]
  congr 1
  refine Finset.sum_congr rfl fun cc _ => ?_
  rw [posEntry i p hp arg1 harg1 arg2 harg2 arg3 harg3 x0 x1 x2 lab hx1 hx2 k q hq r cc]
  rfl

/-- One trip adds chunk `q`'s negative terms of row `256·p + r`. -/
theorem negChunk (k : Fin k0_t1_loop.trips) (q : Fin 32) (hq : k.val = q.val) (a : FVec Ideal S256x1 .f32) (r : Fin 256) :
    k0_pay6 (F := Ideal) a (k0_pay10 (k0_pay2 (rowLab i arg3 harg3 x2)) (colLab arg2 (harg2.unread x1) k))
        (k0_pay12 (k0_pay1 (qBlk i arg1 harg1 x0)) (keyBlk arg1 (harg1.unread x0) k)) (k0_pay13 (F := Ideal)) (ix2 r (0 : Fin 1))
      = a (ix2 r (0 : Fin 1)) + ∑ cc : Fin 256, Cert.Spec.negTerm x0 lab (Cert.Spec.col p r) (Cert.Spec.col q cc) := by
  rw [pay6_apply]
  congr 1
  refine Finset.sum_congr rfl fun cc _ => ?_
  rw [pay10_apply, pay12_apply, pay13_apply, pay1_eq, pay2_eq, rowLab_apply i p hp, colLab_apply k q hq, hx1, hx2]
  simp only [qBlk_apply i p hp, keyBlk_apply k q hq]
  rfl

/-- THE LOOP: after `n` trips row `r` of the carried pair holds the first `n` chunks' sums, accumulated from zero. -/
theorem loop_inv (n : ℕ) (hn : n ≤ 32) (r : Fin 256) :
    (loopAt (F := Ideal) c i arg1 harg1 arg2 harg2 arg3 harg3 arg4 harg4 x0 x1 x2 n).1 (ix2 r (0 : Fin 1))
        = Cert.Spec.accum (Ideal.ofBits .f32 0x00000000#32)
            (fun q => ∑ cc : Fin 256, Cert.Spec.posTerm x0 lab (Cert.Spec.col p r) (Cert.Spec.col q cc)) n
    ∧ (loopAt (F := Ideal) c i arg1 harg1 arg2 harg2 arg3 harg3 arg4 harg4 x0 x1 x2 n).2 (ix2 r (0 : Fin 1))
        = Cert.Spec.accum (Ideal.ofBits .f32 0x00000000#32)
            (fun q => ∑ cc : Fin 256, Cert.Spec.negTerm x0 lab (Cert.Spec.col p r) (Cert.Spec.col q cc)) n := by
  induction n with
  | zero => exact ⟨pay3_apply r, pay4_apply r⟩
  | succ n ih =>
    have hn' : n < 32 := hn
    obtain ⟨ih1, ih2⟩ := ih (Nat.le_of_lt hn')
    have hk : n < k0_t1_loop.trips := by rw [trips_eq]; exact hn'
    have hs : loopAt (F := Ideal) c i arg1 harg1 arg2 harg2 arg3 harg3 arg4 harg4 x0 x1 x2 (n + 1)
        = tripR_k0_t1 (F := Ideal) Variants.none c none i arg1 harg1 arg2 harg2 arg3 harg3 arg4 harg4 (k0_mult1 i) (qBlk i arg1 harg1 x0) (rowLab i arg3 harg3 x2)
            (harg1.unread x0) (harg2.unread x1) ⟨n, hk⟩ (loopAt (F := Ideal) c i arg1 harg1 arg2 harg2 arg3 harg3 arg4 harg4 x0 x1 x2 n) :=
      st_k0_t1_succ (F := Ideal) Variants.none c none i arg1 harg1 arg2 harg2 arg3 harg3 arg4 harg4 (k0_mult1 i) (qBlk i arg1 harg1 x0) (rowLab i arg3 harg3 x2)
        (harg1.unread x0) (harg2.unread x1) (k0_pay3 (F := Ideal), k0_pay4 (F := Ideal)) ⟨n, hk⟩
    rw [hs, trip_eq]
    constructor
    · dsimp only
      rw [posChunk i p hp arg1 harg1 arg2 harg2 arg3 harg3 x0 x1 x2 lab hx1 hx2 ⟨n, hk⟩ ⟨n, hn'⟩ rfl _ r, ih1]
      simp only [Cert.Spec.accum, dif_pos hn']
    · dsimp only
      rw [negChunk i p hp arg1 harg1 arg2 harg2 arg3 harg3 x0 x1 x2 lab hx1 hx2 ⟨n, hk⟩ ⟨n, hn'⟩ rfl _ r, ih2]
      simp only [Cert.Spec.accum, dif_pos hn']

/-- WHAT THE POINT STORES in row `r`: the specification's loss of row `256·p + r`. -/
theorem point_eq (r : Fin 256) :
    out0_A_3 (F := Ideal) c i arg1 harg1 arg2 harg2 arg3 harg3 arg4 harg4 x0 x1 x2 (ix2 r (0 : Fin 1)) = Cert.Spec.rowLoss x0 lab (Cert.Spec.col p r) := by
  obtain ⟨h1, h2⟩ := loop_inv c i p hp arg1 harg1 arg2 harg2 arg3 harg3 arg4 harg4 x0 x1 x2 lab hx1 hx2 32 le_rfl r
  rw [out_eq, pay7_apply, h1, h2, Cert.Spec.accum_all, Cert.Spec.accum_all,
    ← Cert.Spec.sum_cols (fun C => Cert.Spec.posTerm x0 lab (Cert.Spec.col p r) C),
    ← Cert.Spec.sum_cols (fun C => Cert.Spec.negTerm x0 lab (Cert.Spec.col p r) C)]
  rfl

end Point

end Cert.KernelPoint

end
-- ==== Proof.KernelArray.lean ====
/-
  The kernel's output array after the 32 grid points.  The three input windows hold whole arrays (one block, index
  (0, 0), at every point): the normalised features the host computed before the region, and the labels reshaped to a
  row and to a column.  The output window's block at point `t` is rows `256·t … 256·t + 255` of the 8192 x 1 output,
  and what point `t` writes back there is the specification's row loss of those rows.  The 32 blocks tile the array,
  so after the run the array holds the row loss of every row.
-/
import proofs.«102173_j38628935860375_1_alg».proof.Proof.KernelPoint
import Idealize.ShloMosaic.Lib.StableHlo.Run
import Idealize.ShloMosaic.Lib.Pipeline.Value

set_option maxRecDepth 16384

noncomputable section

namespace Cert.KernelArray

open Idealize.ShloMosaic Idealize.ShloMosaic.TcCoe Idealize.ShloMosaic.ValueIdx Idealize.ShloMosaic.StableHlo
open Idealize.SL Idealize.SL.Sem
open Cert.KernelIdeal Cert.KernelIdeal.Gen
open scoped BigOperators

variable (m : (ℓ : Loc nD τ sig) → Buf (Elt Ideal) ℓ)

/-- The printed index maps, decided over the 32 points: the inputs' block index is (0, 0) throughout, the output's is
    (t, 0), and the body's grid coordinate is the point's number. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ ((grid0.coords t) 0).val = t.val :=
  (by decide +kernel : ∀ t : Fin grid0.N, _)

/-- The arrays the region finds: the normalised features, and the labels as the program's second argument holds them. -/
abbrev feats (c : Dev nD) : Vec Ideal S8192x128 .f32 := V m c main_v5
abbrev labels (c : Dev nD) : Cert.Spec.Lab := m ((c : Thread nD τ).loc main_arg1)
abbrev labRow (c : Dev nD) : Vec Ideal S1x8192 .i32 := V m c main_v6
abbrev labCol (c : Dev nD) : Vec Ideal S8192x1 .i32 := V m c main_v7

/-! ## The host's two reshapes of the labels -/

theorem labRow_eq (c : Dev nD) : labRow m c = shapeCast S1x8192 (m ((c : Thread nD τ).loc main_arg1)) shapeCasts_S8192_S1x8192 := by
  show StableHlo.after hostOps0 (fun b => m (c, b)) (Proc.devRef .tc main_v6) = _
  after_results
  rfl

theorem labCol_eq (c : Dev nD) : labCol m c = shapeCast S8192x1 (m ((c : Thread nD τ).loc main_arg1)) shapeCasts_S8192_S8192x1 := by
  show StableHlo.after hostOps0 (fun b => m (c, b)) (Proc.devRef .tc main_v7) = _
  after_results
  rfl

/-- Entry (0, C) of the label row is label C. -/
theorem labRow_apply (c : Dev nD) (C : Fin 8192) : labRow m c (ix2 (0 : Fin 1) C) = labels m c (ix1 C) := by
  rw [labRow_eq]
  refine shapeCast_apply _ _ _ (ix1 C) ?_
  rw [Shape.rowMajor_val_one, Shape.rowMajor_val_two]
  simp

/-- Entry (R, 0) of the label column is label R. -/
theorem labCol_apply (c : Dev nD) (R : Fin 8192) : labCol m c (ix2 R (0 : Fin 1)) = labels m c (ix1 R) := by
  rw [labCol_eq]
  refine shapeCast_apply _ _ _ (ix1 R) ?_
  rw [Shape.rowMajor_val_one, Shape.rowMajor_val_two]
  simp

/-! ## The input windows' blocks are the whole arrays -/

theorem iblk0_apply (c : Dev nD) (t : Fin cfg0.N) (y : S8192x128.Idx) : iblk m c 0 t y = feats m c y := by
  obtain ⟨e0, e1, -⟩ := idx_facts t
  show V m c main_v5 (((cfg0.win 0).blk t).view.emb y) = V m c main_v5 y
  congr 1
  funext a; apply Fin.ext
  match a with
  | ⟨0, _⟩ => show win0_0.index t (0 : Fin 2) * 8192 + 1 * (y 0).val = (y 0).val; omega
  | ⟨1, _⟩ => show win0_0.index t (1 : Fin 2) * 128 + 1 * (y 1).val = (y 1).val; omega

theorem iblk1_apply (c : Dev nD) (t : Fin cfg0.N) (y : S1x8192.Idx) : iblk m c 1 t y = labRow m c y := by
  obtain ⟨-, -, e0, e1, -⟩ := idx_facts t
  show V m c main_v6 (((cfg0.win 1).blk t).view.emb y) = V m c main_v6 y
  congr 1
  funext a; apply Fin.ext
  match a with
  | ⟨0, _⟩ => show win0_1.index t (0 : Fin 2) * 1 + 1 * (y 0).val = (y 0).val; omega
  | ⟨1, _⟩ => show win0_1.index t (1 : Fin 2) * 8192 + 1 * (y 1).val = (y 1).val; omega

theorem iblk2_apply (c : Dev nD) (t : Fin cfg0.N) (y : S8192x1.Idx) : iblk m c 2 t y = labCol m c y := by
  obtain ⟨-, -, -, -, e0, e1, -⟩ := idx_facts t
  show V m c main_v7 (((cfg0.win 2).blk t).view.emb y) = V m c main_v7 y
  congr 1
  funext a; apply Fin.ext
  match a with
  | ⟨0, _⟩ => show win0_2.index t (0 : Fin 2) * 8192 + 1 * (y 0).val = (y 0).val; omega
  | ⟨1, _⟩ => show win0_2.index t (1 : Fin 2) * 1 + 1 * (y 1).val = (y 1).val; omega

/-! ## The output array -/

/-- The row losses as an 8192 x 1 array. -/
def rowLosses (c : Dev nD) : Vec Ideal S8192x1 .f32 := fun j => Cert.Spec.rowLoss (feats m c) (labels m c) (j 0)

/-- WHAT POINT `t` WRITES BACK is block `t` of the row losses. -/
theorem flushed_eq (c : Dev nD) (t : Fin cfg0.N) :
    (dats m 0 c).flushed 3 t = ((cfg0.win 3).blk t).view.read (Elt Ideal) (rowLosses m c) := by
  obtain ⟨-, -, -, -, -, -, e0, e1, ec⟩ := idx_facts t
  have ht : t.val < 32 := lt_of_lt_of_eq t.isLt N_0
  show (cfg0.win 3).cut (grid0.coords t) ((dats m 0 c).after 3 t) = _
  rw [after0_3]
  unfold outsAt0
  funext y
  have hy0 : (y 0).val < 256 := ((cfg0.win 3).xinj (grid0.coords t) y 0).isLt
  have hy1 : (y 1).val < 1 := ((cfg0.win 3).xinj (grid0.coords t) y 1).isLt
  have hyx : (cfg0.win 3).xinj (grid0.coords t) y = ix2 (⟨(y 0).val, hy0⟩ : Fin 256) (0 : Fin 1) := by
    funext a; apply Fin.ext
    match a with
    | ⟨0, _⟩ => rfl
    | ⟨1, _⟩ => show (y 1).val = 0; omega
  show out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) ((cfg0.win 3).xinj (grid0.coords t) y)
    = rowLosses m c (((cfg0.win 3).blk t).view.emb y)
  rw [hyx]
  refine (Cert.KernelPoint.point_eq c (grid0.coords t) ⟨t.val, ht⟩ ec (ms0_0 t) (hs0_0 t) (ms0_1 t) (hs0_1 t) (ms0_2 t) (hs0_2 t) (ms0_3 t) (hs0_3 t)
    (iblk m c 0 t) (iblk m c 1 t) (iblk m c 2 t) (labels m c)
    (fun C => (iblk1_apply m c t _).trans (labRow_apply m c C))
    (fun R => (iblk2_apply m c t _).trans (labCol_apply m c R)) ⟨(y 0).val, hy0⟩).trans ?_
  have hf : (iblk m c 0 t : Vec Ideal S8192x128 .f32) = feats m c := funext (iblk0_apply m c t)
  rw [hf]
  unfold rowLosses
  congr 1
  apply Fin.ext
  show 256 * t.val + (y 0).val = win0_3.index t (0 : Fin 2) * 256 + 1 * (y 0).val
  omega

/-- An index of the output array is in point `t`'s block iff each coordinate is in the block's range on its axis. -/
theorem mem_blk (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v8).slice (win0_3.rect t)).set ↔ _
  rw [View.set_slice_whole, Rect.mem_set_unit]
  exact Iff.rfl

/-- Every row is in some point's block: row `R` in block `R / 256`. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 32 := N_0
  let t : Fin cfg0.N := ⟨(i 0).val / 256, by rw [hN]; omega⟩
  obtain ⟨-, -, -, -, -, -, e0, e1, -⟩ := idx_facts t
  have et : t.val = (i 0).val / 256 := rfl
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1 ≤ (i 1).val ∧ (i 1).val < win0_3.index t (1 : Fin 2) * 1 + 1; omega

/-- THE ARRAY after the run: the row losses. -/
theorem final (c : Dev nD) : (dats m 0 c).arrAt 3 cfg0.N = rowLosses m c :=
  (dats m 0 c).arrAt_eq_of_cover 3 (rowLosses m c) (fun t _ => flushed_eq m c t) (cover)

end Cert.KernelArray

end
-- ==== Proof.KernelValue.lean ====
/-
  The kernel program's result.  After the region the host sums the 8192 x 1 array of row losses from zero and
  divides by the word for 8192: the mean of the row losses, which is the specification's loss of the normalised
  features and the labels.  With the generated run of the whole program this names the result buffer after every
  execution.
-/
import proofs.«102173_j38628935860375_1_alg».proof.Proof.KernelArray
import Idealize.ShloMosaic.PureOps.Ideal.Laws

set_option maxRecDepth 16384

noncomputable section

namespace Cert.KernelValue

open Idealize.ShloMosaic Idealize.ShloMosaic.TcCoe Idealize.ShloMosaic.ValueIdx Idealize.ShloMosaic.StableHlo
open Idealize.SL Idealize.SL.Sem
open Cert.KernelIdeal Cert.KernelIdeal.Gen Cert.KernelArray
open scoped BigOperators

variable (m : (ℓ : Loc nD τ sig) → Buf (Elt Ideal) ℓ) (ρ : Dev nD → PrngReg)

/-- The host's total sum of the row-loss array, from zero, is the sum of the row losses over the 8192 rows. -/
theorem total_eq (c : Dev nD) (j : S_.Idx) :
    Host.reduceAdd (F := Ideal) (rowLosses m c) (constant S_ .f32 0x00000000#32) reducesTo_S8192x1_S_d0_1 h_S_ j
      = Ideal.ofBits .f32 0x00000000#32 + ∑ R : Fin 8192, Cert.Spec.rowLoss (feats m c) (labels m c) R := by
  simp only [Host.reduceAdd, Ideal.hostReduceAdd_def]
  rw [Ideal.hostReduceAdd_total reducesTo_S8192x1_S_d0_1 (fun b => b.elim0) (rowLosses m c) _ j, sum_idx2]
  congr 1
  refine Finset.sum_congr rfl fun R _ => ?_
  rw [Fin.sum_univ_one]
  rfl

/-- THE RESULT the host operations after the region leave: the loss. -/
theorem tail_eq (c : Dev nD) :
    Pipeline.afterTail₀ cfgs (dats m) 0 (V0 m) [hostOps1] c main_v10
      = fun _ => Cert.Spec.loss (feats m c) (labels m c) := by
  unfold Pipeline.afterTail₀
  show StableHlo.after hostOps1 _ (Proc.devRef .tc main_v10) = _
  after_results
  rw [Pipeline.withArrays_arr spec0 launch0.win.arr_inj c _ _ 3]
  have hfin : (dats m 0 c).arrAt 3 (cfgs 0).N = rowLosses m c := final m c
  rw [hfin]
  funext j
  exact congrArg (fun s : EReal => FloatOps.hostDivf (F := Ideal) (φ := .f32) s (Ideal.ofBits .f32 0x46000000#32)) (total_eq m c j)

/-- THE RUN: every weakly fair execution of the kernel program terminates with the result buffer at the loss and the
    two argument arrays unchanged. -/
theorem run : θ_run defs (onTc (τ := τ) (main (F := Ideal))) ⟨m, fun _ => 0, ρ⟩ (fun r => ∀ c : Dev nD,
      r.2.mem ((c.tc : Thread nD τ).loc main_v10) = (fun _ => Cert.Spec.loss (feats m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v10 (Pipeline.mem_restRefs_of main_v10 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelValue

end
-- ==== Proof.lean ====
/-
  The circle loss: a fused kernel against its plain reference, equal on the extended reals.

  Both programs normalise the rows of the 8192 x 128 feature matrix (`x / sqrt (Σ x²)`, the same host operations in
  both), form the similarities `s(R, C) = Σ_d f R d · f C d`, and for every row `R` sum `exp` of
  `(-32 · max (5/4 - s) 0) · (s - 3/4)` over the columns with R's label other than R itself, and `exp` of
  `(32 · max (s + 1/4) 0) · (s - 1/4)` over the columns with another label (`exp (-∞) = 0` elsewhere); the row's
  loss is `log (1 + P · N)` of the two sums and the result the mean over the rows (`Cert.Spec.loss`).

  The reference does this with whole 8192 x 8192 arrays (`Cert.RefSpec.result_eq`).  The kernel runs 32 grid points
  of 256 rows; each point walks the columns in 32 chunks of 256, adding each chunk's two sums into two carried
  columns that start at zero, and stores `log (1 + P · N)`; the host then takes the mean
  (`Cert.KernelValue.run`).  The two agree because a sum over 8192 columns is the chunks' sums accumulated in order
  from zero — commutativity and associativity of addition on the extended reals, valid at the infinities, so the
  finiteness of the inputs is never used — and because every other operation is the same exact operation applied
  to the same similarity: the kernel's matrix product and lane sums and the host's are the same finite sums, and the
  kernel's diagonal test compares the words `256·p + r` and `256·q + c`, the reference's the row and column numbers.
  The idealization rewrote nothing, so `preserves` is trivial; the kernel programs' frames are their generated ones
  and the reference's frame is its generated run.
-/
import proofs.«102173_j38628935860375_1_alg».proof.Defs
import proofs.«102173_j38628935860375_1_alg».proof.Proof.Gen.Kernel
import proofs.«102173_j38628935860375_1_alg».proof.Proof.Gen.Kernel.Skeleton
import proofs.«102173_j38628935860375_1_alg».proof.Proof.Gen.Kernel.Loops
import proofs.«102173_j38628935860375_1_alg».proof.Proof.Gen.Kernel.Launch
import proofs.«102173_j38628935860375_1_alg».proof.Proof.Gen.Kernel.Points
import proofs.«102173_j38628935860375_1_alg».proof.Proof.Gen.Kernel.Frame
import proofs.«102173_j38628935860375_1_alg».proof.Proof.Gen.KernelIdeal
import proofs.«102173_j38628935860375_1_alg».proof.Proof.Gen.KernelIdeal.Skeleton
import proofs.«102173_j38628935860375_1_alg».proof.Proof.Gen.KernelIdeal.Loops
import proofs.«102173_j38628935860375_1_alg».proof.Proof.Gen.KernelIdeal.Launch
import proofs.«102173_j38628935860375_1_alg».proof.Proof.Gen.KernelIdeal.Points
import proofs.«102173_j38628935860375_1_alg».proof.Proof.Gen.KernelIdeal.Frame
import proofs.«102173_j38628935860375_1_alg».proof.Proof.Gen.ReferenceIdeal
import proofs.«102173_j38628935860375_1_alg».proof.Proof.Gen.ReferenceIdeal.Run
import proofs.«102173_j38628935860375_1_alg».proof.Proof.Gen.ReferenceIdeal.Read
import proofs.«102173_j38628935860375_1_alg».proof.Proof.Gen.Pre_finite_inputs
import proofs.«102173_j38628935860375_1_alg».proof.Proof.RefSpec
import proofs.«102173_j38628935860375_1_alg».proof.Proof.KernelValue
import Idealize.ShloMosaic.Adequacy
import Idealize.ShloMosaic.Init

set_option maxRecDepth 16384

noncomputable section

namespace Cert.Proof

open Idealize.ShloMosaic Idealize.ShloMosaic.TcCoe Idealize.ShloMosaic.StableHlo Idealize.SL.Sem

/-- The features the kernel's region finds are the reference's normalised features: the host operations before
    the region are the reference's own, `x / sqrt (0 + Σ_d x²)` row by row. -/
theorem feats_eq (m : (ℓ : Loc Cert.KernelIdeal.nD Cert.KernelIdeal.τ Cert.KernelIdeal.sig) → Buf (Elt Ideal) ℓ) (c : Dev Cert.KernelIdeal.nD) :
    Cert.KernelArray.feats m c
      = Cert.ReferenceIdeal.Read.val_main_v2 (F := Ideal) (m ((c.tc : Thread Cert.KernelIdeal.nD Cert.KernelIdeal.τ).loc Cert.KernelIdeal.main_arg0)) := by
  show StableHlo.after Cert.KernelIdeal.Gen.hostOps0 (fun b => m (c, b)) (Proc.devRef .tc Cert.KernelIdeal.main_v5) = _
  after_results
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the loss of the normalised features and the labels. -/
theorem algebraic : Cert.algebraic_KernelIdeal_ReferenceIdeal := by
  intro m ρ m' ρ' _ hagree
  refine ⟨fun c => fun _ => Cert.Spec.loss (Cert.KernelArray.feats m c) (Cert.KernelArray.labels m c),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.RefSpec.result_eq, (hagree c).1, (hagree c).2]
  beta_reduce
  rw [feats_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
